-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S4x4096x3 .f32) (main_arg1 : FVec F S4x4096x3 .f32) (main_arg2 : FVec F S4x4096x128 .f32) (main_arg3 : IVec S4x4096x16 32) (main_arg4 : IVec S4x4096x16 32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4 : Shape := ⟨1, ![4]⟩
abbrev S4x1x1 : Shape := ⟨3, ![4, 1, 1]⟩
abbrev S_ : Shape := ⟨0, ![]⟩
abbrev S4x4096x16x1 : Shape := ⟨4, ![4, 4096, 16, 1]⟩
abbrev S4x4096x16x2 : Shape := ⟨4, ![4, 4096, 16, 2]⟩
abbrev S4x4096x16x128 : Shape := ⟨4, ![4, 4096, 16, 128]⟩
abbrev S16384x128 : Shape := ⟨2, ![16384, 128]⟩
abbrev S16384x16x128 : Shape := ⟨3, ![16384, 16, 128]⟩
abbrev S16384x16 : Shape := ⟨2, ![16384, 16]⟩
abbrev S128x256 : Shape := ⟨2, ![128, 256]⟩
abbrev S256x16x128 : Shape := ⟨3, ![256, 16, 128]⟩
abbrev S256x16 : Shape := ⟨2, ![256, 16]⟩
abbrev S4096x128 : Shape := ⟨2, ![4096, 128]⟩
abbrev S4096x256 : Shape := ⟨2, ![4096, 256]⟩
abbrev S256x16x256 : Shape := ⟨3, ![256, 16, 256]⟩
abbrev S256x1x256 : Shape := ⟨3, ![256, 1, 256]⟩
abbrev S1x1x256 : Shape := ⟨3, ![1, 1, 256]⟩
abbrev S1x256 : Shape := ⟨2, ![1, 256]⟩
abbrev S1x128 : Shape := ⟨2, ![1, 128]⟩
abbrev S256x16x1 : Shape := ⟨3, ![256, 16, 1]⟩

abbrev nBuf : Space → Nat
  | .hbm => 44
  | .vmem => 15
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x128, .f32⟩
  | .hbm, ⟨3, _⟩ => ⟨S4x4096x16, .i32⟩
  | .hbm, ⟨4, _⟩ => ⟨S4x4096x16, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S4x4096x128, .bf16⟩
  | .hbm, ⟨12, _⟩ => ⟨S4, .i32⟩
  | .hbm, ⟨13, _⟩ => ⟨S4x1x1, .i32⟩
  | .hbm, ⟨14, _⟩ => ⟨S_, .i32⟩
  | .hbm, ⟨15, _⟩ => ⟨S4x1x1, .i32⟩
  | .hbm, ⟨16, _⟩ => ⟨S4x1x1, .i1⟩
  | .hbm, ⟨17, _⟩ => ⟨S_, .i32⟩
  | .hbm, ⟨18, _⟩ => ⟨S4x1x1, .i32⟩
  | .hbm, ⟨19, _⟩ => ⟨S4x1x1, .i32⟩
  | .hbm, ⟨20, _⟩ => ⟨S4x1x1, .i32⟩
  | .hbm, ⟨21, _⟩ => ⟨S_, .i32⟩
  | .hbm, ⟨22, _⟩ => ⟨S4x4096x16, .i32⟩
  | .hbm, ⟨23, _⟩ => ⟨S4x4096x16, .i1⟩
  | .hbm, ⟨24, _⟩ => ⟨S_, .i32⟩
  | .hbm, ⟨25, _⟩ => ⟨S4x4096x16, .i32⟩
  | .hbm, ⟨26, _⟩ => ⟨S4x4096x16, .i32⟩
  | .hbm, ⟨27, _⟩ => ⟨S4x4096x16, .i32⟩
  | .hbm, ⟨28, _⟩ => ⟨S4x4096x16, .i32⟩
  | .hbm, ⟨29, _⟩ => ⟨S4x4096x16x1, .i32⟩
  | .hbm, ⟨30, _⟩ => ⟨S4x4096x16x1, .i32⟩
  | .hbm, ⟨31, _⟩ => ⟨S4x4096x16x2, .i32⟩
  | .hbm, ⟨32, _⟩ => ⟨S4x4096x16x128, .bf16⟩
  | .hbm, ⟨33, _⟩ => ⟨S16384x128, .bf16⟩
  | .hbm, ⟨34, _⟩ => ⟨S16384x16x128, .bf16⟩
  | .hbm, ⟨35, _⟩ => ⟨S16384x16, .i32⟩
  | .hbm, ⟨36, _⟩ => ⟨S128x256, .f32⟩
  | .hbm, ⟨37, _⟩ => ⟨S128x256, .bf16⟩
  | .hbm, ⟨38, _⟩ => ⟨S128x256, .f32⟩
  | .hbm, ⟨39, _⟩ => ⟨S128x256, .bf16⟩
  | .hbm, ⟨40, _⟩ => ⟨S256x256, .bf16⟩
  | .hbm, ⟨41, _⟩ => ⟨S256x128, .bf16⟩
  | .hbm, ⟨42, _⟩ => ⟨S16384x128, .f32⟩
  | .hbm, ⟨43, _⟩ => ⟨S4x4096x128, .f32⟩
  | .local _ .vmem, ⟨0, _⟩ => ⟨S256x128, .bf16⟩
  | .local _ .vmem, ⟨1, _⟩ => ⟨S256x128, .bf16⟩
  | .local _ .vmem, ⟨2, _⟩ => ⟨S256x16x128, .bf16⟩
  | .local _ .vmem, ⟨3, _⟩ => ⟨S256x16x128, .bf16⟩
  | .local _ .vmem, ⟨4, _⟩ => ⟨S256x16, .i32⟩
  | .local _ .vmem, ⟨5, _⟩ => ⟨S256x16, .i32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S256x256, .bf16⟩
  | .local _ .vmem, ⟨10, _⟩ => ⟨S256, .f32⟩
  | .local _ .vmem, ⟨11, _⟩ => ⟨S256x128, .bf16⟩
  | .local _ .vmem, ⟨12, _⟩ => ⟨S128, .f32⟩
  | .local _ .vmem, ⟨13, _⟩ => ⟨S256x128, .f32⟩
  | .local _ .vmem, ⟨14, _⟩ => ⟨S256x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x4096x16 : S_.BroadcastsInDim S4x4096x16 (![] : Fin 0 → Fin S4x4096x16.rank)
  bcast_S4x1x1_S4x4096x16_0_1_2 : S4x1x1.BroadcastsInDim S4x4096x16 (![0, 1, 2] : Fin 3 → Fin S4x4096x16.rank)
  bcast_S4x4096x16_S4x4096x16x1_0_1_2 : S4x4096x16.BroadcastsInDim S4x4096x16x1 (![0, 1, 2] : Fin 3 → Fin S4x4096x16x1.rank)
  concatenates_S4x4096x16x1_S4x4096x16x1_S4x4096x16x2_d3 : Shape.Concatenates [S4x4096x16x1, S4x4096x16x1] S4x4096x16x2 3
  shapeCasts_S4x4096x128_S16384x128 : S4x4096x128.ShapeCasts S16384x128
  shapeCasts_S4x4096x16x128_S16384x16x128 : S4x4096x16x128.ShapeCasts S16384x16x128
  shapeCasts_S4x4096x16_S16384x16 : S4x4096x16.ShapeCasts S16384x16
  slices_S256x256_S128x256_0_0 : S256x256.Slices ![0, 0] S128x256
  slices_S256x256_S128x256_128_0 : S256x256.Slices ![128, 0] S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x16x128_S256x16x128_0_0_0 : ∀ a, (![0, 0, 0] : Fin 3 → Nat) a + S256x16x128.size a ≤ S256x16x128.size a
  h_S256x16x128 : 0 < S256x16x128.numel
  shapeCasts_S256x16x128_S256x16x128 : S256x16x128.ShapeCasts S256x16x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128_S128_0 : ∀ a, (![0] : Fin 1 → Nat) a + S128.size a ≤ S128.size a
  h_S128 : 0 < S128.numel
  shapeCasts_S256x16x128_S4096x128 : S256x16x128.ShapeCasts S4096x128
  shapeCasts_S4096x256_S256x16x256 : S4096x256.ShapeCasts S256x16x256
  shapeCasts_S256x256_S256x1x256 : S256x256.ShapeCasts S256x1x256
  broadcasts_S256x1x256_S256x16x256 : S256x1x256.Broadcasts S256x16x256
  shapeCasts_S256_S1x1x256 : S256.ShapeCasts S1x1x256
  broadcasts_S1x1x256_S256x16x256 : S1x1x256.Broadcasts S256x16x256
  shapeCasts_S256x16x256_S4096x256 : S256x16x256.ShapeCasts S4096x256
  shapeCasts_S256_S1x256 : S256.ShapeCasts S1x256
  broadcasts_S1x256_S4096x256 : S1x256.Broadcasts S4096x256
  shapeCasts_S128_S1x128 : S128.ShapeCasts S1x128
  broadcasts_S1x128_S4096x128 : S1x128.Broadcasts S4096x128
  shapeCasts_S4096x128_S256x16x128 : S4096x128.ShapeCasts S256x16x128
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x16_S256x16x1 : S256x16.ShapeCasts S256x16x1
  broadcasts_S256x16x1_S256x16x128 : S256x16x1.Broadcasts S256x16x128
  reduces_S256x16x128_S256x128 : S256x16x128.Reduces [1] S256x128
  shapeCasts_S16384x128_S4x4096x128 : S16384x128.ShapeCasts S4x4096x128
  gather_S4x4096x128_S4x4096x16x2_S4x4096x16x128_3_01_n_n_01_3_11128_wf : GatherDims.WF S4x4096x128 S4x4096x16x2 S4x4096x16x128 [3] [0, 1] [] [0, 1] [] 3 ![1, 1, 128]
  dot_S256x128_S128x256_S256x256_1_0_0_1_n_n_wf : DotDims.WF S256x128 S128x256 S256x256 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .bf16 = 32 ∨ (Rect.block (s := S16384x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x128.size a ≤ S16384x16x128.size a
  hwx0_1 : ∀ i : grid0.Coords, EltTy.bits .bf16 = 32 ∨ (Rect.block (s := S16384x16x128) S256x16x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S16384x16.size a
  hwx0_2 : ∀ i : grid0.Coords, EltTy.bits .i32 = 32 ∨ (Rect.block (s := S16384x16) S256x16.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S16384x128.size a
  hwx0_10 : ∀ i : grid0.Coords, EltTy.bits .f32 = 32 ∨ (Rect.block (s := S16384x128) S256x128.size (cc0_transform_10 i) (hinb0_10 i)).WholeWords (EltTy.packing .f32)

variable [Facts₀]

def gather_S4x4096x128_S4x4096x16x2_S4x4096x16x128_3_01_n_n_01_3_11128 : GatherDims S4x4096x128 S4x4096x16x2 S4x4096x16x128 where
  offsetDims := [3]
  collapsedSliceDims := [0, 1]
  operandBatchingDims := []
  startIndicesBatchingDims := []
  startIndexMap := [0, 1]
  indexVectorDim := 3
  sliceSizes := ![1, 1, 128]
  wf := gather_S4x4096x128_S4x4096x16x2_S4x4096x16x128_3_01_n_n_01_3_11128_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v18) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S256x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x4096x128 : Shape := ⟨3, ![4, 4096, 128]⟩
abbrev S4x4096x16 : Shape := ⟨3, ![4, 4096, 16]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4 : Shape := ⟨1, ![4]⟩
abbrev S4x1x1 : Shape := ⟨3, ![4, 1, 1]⟩
abbrev S_ : Shape := ⟨0, ![]⟩
abbrev S4x4096x16x1 : Shape := ⟨4, ![4, 4096, 16, 1]⟩
abbrev S4x4096x16x2 : Shape := ⟨4, ![4, 4096, 16, 2]⟩
abbrev S4x4096x16x128 : Shape := ⟨4, ![4, 4096, 16, 128]⟩
abbrev S4x4096x1x128 : Shape := ⟨4, ![4, 4096, 1, 128]⟩
abbrev S4x4096x16x256 : Shape := ⟨4, ![4, 4096, 16, 256]⟩
abbrev S1x1x1x256 : Shape := ⟨4, ![1, 1, 1, 256]⟩
abbrev S1x1x1x128 : Shape := ⟨4, ![1, 1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x128, .f32⟩
  | .hbm, ⟨3, _⟩ => ⟨S4x4096x16, .i32⟩
  | .hbm, ⟨4, _⟩ => ⟨S4x4096x16, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S4, .i32⟩
  | .hbm, ⟨12, _⟩ => ⟨S4x1x1, .i32⟩
  | .hbm, ⟨13, _⟩ => ⟨S_, .i32⟩
  | .hbm, ⟨14, _⟩ => ⟨S4x1x1, .i32⟩
  | .hbm, ⟨15, _⟩ => ⟨S4x1x1, .i1⟩
  | .hbm, ⟨16, _⟩ => ⟨S_, .i32⟩
  | .hbm, ⟨17, _⟩ => ⟨S4x1x1, .i32⟩
  | .hbm, ⟨18, _⟩ => ⟨S4x1x1, .i32⟩
  | .hbm, ⟨19, _⟩ => ⟨S4x1x1, .i32⟩
  | .hbm, ⟨20, _⟩ => ⟨S_, .i32⟩
  | .hbm, ⟨21, _⟩ => ⟨S4x4096x16, .i32⟩
  | .hbm, ⟨22, _⟩ => ⟨S4x4096x16, .i1⟩
  | .hbm, ⟨23, _⟩ => ⟨S_, .i32⟩
  | .hbm, ⟨24, _⟩ => ⟨S4x4096x16, .i32⟩
  | .hbm, ⟨25, _⟩ => ⟨S4x4096x16, .i32⟩
  | .hbm, ⟨26, _⟩ => ⟨S4x4096x16, .i32⟩
  | .hbm, ⟨27, _⟩ => ⟨S4x4096x16, .i32⟩
  | .hbm, ⟨28, _⟩ => ⟨S4x4096x16x1, .i32⟩
  | .hbm, ⟨29, _⟩ => ⟨S4x4096x16x1, .i32⟩
  | .hbm, ⟨30, _⟩ => ⟨S4x4096x16x2, .i32⟩
  | .hbm, ⟨31, _⟩ => ⟨S4x4096x16x128, .f32⟩
  | .hbm, ⟨32, _⟩ => ⟨S4x4096x1x128, .f32⟩
  | .hbm, ⟨33, _⟩ => ⟨S4x4096x16x128, .f32⟩
  | .hbm, ⟨34, _⟩ => ⟨S4x4096x16x256, .f32⟩
  | .hbm, ⟨35, _⟩ => ⟨S4x4096x16x256, .f32⟩
  | .hbm, ⟨36, _⟩ => ⟨S1x1x1x256, .f32⟩
  | .hbm, ⟨37, _⟩ => ⟨S4x4096x16x256, .f32⟩
  | .hbm, ⟨38, _⟩ => ⟨S4x4096x16x256, .f32⟩
  | .hbm, ⟨39, _⟩ => ⟨S_, .f32⟩
  | .hbm, ⟨40, _⟩ => ⟨S4x4096x16x256, .f32⟩
  | .hbm, ⟨41, _⟩ => ⟨S4x4096x16x256, .f32⟩
  | .hbm, ⟨42, _⟩ => ⟨S4x4096x16x256, .f32⟩
  | .hbm, ⟨43, _⟩ => ⟨S1x1x1x256, .f32⟩
  | .hbm, ⟨44, _⟩ => ⟨S4x4096x16x256, .f32⟩
  | .hbm, ⟨45, _⟩ => ⟨S4x4096x16x256, .f32⟩
  | .hbm, ⟨46, _⟩ => ⟨S_, .f32⟩
  | .hbm, ⟨47, _⟩ => ⟨S4x4096x16x256, .f32⟩
  | .hbm, ⟨48, _⟩ => ⟨S4x4096x16x256, .f32⟩
  | .hbm, ⟨49, _⟩ => ⟨S4x4096x16x128, .f32⟩
  | .hbm, ⟨50, _⟩ => ⟨S1x1x1x128, .f32⟩
  | .hbm, ⟨51, _⟩ => ⟨S4x4096x16x128, .f32⟩
  | .hbm, ⟨52, _⟩ => ⟨S4x4096x16x128, .f32⟩
  | .hbm, ⟨53, _⟩ => ⟨S4x4096x16x1, .i32⟩
  | .hbm, ⟨54, _⟩ => ⟨S4x4096x16x1, .f32⟩
  | .hbm, ⟨55, _⟩ => ⟨S4x4096x16x128, .f32⟩
  | .hbm, ⟨56, _⟩ => ⟨S4x4096x16x128, .f32⟩
  | .hbm, ⟨57, _⟩ => ⟨S_, .f32⟩
  | .hbm, ⟨58, _⟩ => ⟨S4x4096x128, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x4096x16 : S_.BroadcastsInDim S4x4096x16 (![] : Fin 0 → Fin S4x4096x16.rank)
  bcast_S4x1x1_S4x4096x16_0_1_2 : S4x1x1.BroadcastsInDim S4x4096x16 (![0, 1, 2] : Fin 3 → Fin S4x4096x16.rank)
  bcast_S4x4096x16_S4x4096x16x1_0_1_2 : S4x4096x16.BroadcastsInDim S4x4096x16x1 (![0, 1, 2] : Fin 3 → Fin S4x4096x16x1.rank)
  concatenates_S4x4096x16x1_S4x4096x16x1_S4x4096x16x2_d3 : Shape.Concatenates [S4x4096x16x1, S4x4096x16x1] S4x4096x16x2 3
  bcast_S4x4096x128_S4x4096x1x128_0_1_3 : S4x4096x128.BroadcastsInDim S4x4096x1x128 (![0, 1, 3] : Fin 3 → Fin S4x4096x1x128.rank)
  bcast_S4x4096x1x128_S4x4096x16x128_0_1_2_3 : S4x4096x1x128.BroadcastsInDim S4x4096x16x128 (![0, 1, 2, 3] : Fin 4 → Fin S4x4096x16x128.rank)
  concatenates_S4x4096x16x128_S4x4096x16x128_S4x4096x16x256_d3 : Shape.Concatenates [S4x4096x16x128, S4x4096x16x128] S4x4096x16x256 3
  bcast_S256_S1x1x1x256_3 : S256.BroadcastsInDim S1x1x1x256 (![3] : Fin 1 → Fin S1x1x1x256.rank)
  bcast_S1x1x1x256_S4x4096x16x256_0_1_2_3 : S1x1x1x256.BroadcastsInDim S4x4096x16x256 (![0, 1, 2, 3] : Fin 4 → Fin S4x4096x16x256.rank)
  bcast_S_S4x4096x16x256 : S_.BroadcastsInDim S4x4096x16x256 (![] : Fin 0 → Fin S4x4096x16x256.rank)
  bcast_S128_S1x1x1x128_3 : S128.BroadcastsInDim S1x1x1x128 (![3] : Fin 1 → Fin S1x1x1x128.rank)
  bcast_S1x1x1x128_S4x4096x16x128_0_1_2_3 : S1x1x1x128.BroadcastsInDim S4x4096x16x128 (![0, 1, 2, 3] : Fin 4 → Fin S4x4096x16x128.rank)
  bcast_S4x4096x16x1_S4x4096x16x128_0_1_2_3 : S4x4096x16x1.BroadcastsInDim S4x4096x16x128 (![0, 1, 2, 3] : Fin 4 → Fin S4x4096x16x128.rank)
  reducesTo_S4x4096x16x128_S4x4096x128_d2 : S4x4096x16x128.ReducesTo [2] S4x4096x128
  h_S_ : 0 < S_.numel
  gather_S4x4096x128_S4x4096x16x2_S4x4096x16x128_3_01_n_n_01_3_11128_wf : GatherDims.WF S4x4096x128 S4x4096x16x2 S4x4096x16x128 [3] [0, 1] [] [0, 1] [] 3 ![1, 1, 128]
  dot_S4x4096x16x256_S256x256_S4x4096x16x256_3_0_012_1_n_n_wf : DotDims.WF S4x4096x16x256 S256x256 S4x4096x16x256 [3] [0] [0, 1, 2] [1] [] []
  dot_S4x4096x16x256_S256x128_S4x4096x16x128_3_0_012_1_n_n_wf : DotDims.WF S4x4096x16x256 S256x128 S4x4096x16x128 [3] [0] [0, 1, 2] [1] [] []

variable [Facts₀]

def gather_S4x4096x128_S4x4096x16x2_S4x4096x16x128_3_01_n_n_01_3_11128 : GatherDims S4x4096x128 S4x4096x16x2 S4x4096x16x128 where
  offsetDims := [3]
  collapsedSliceDims := [0, 1]
  operandBatchingDims := []
  startIndicesBatchingDims := []
  startIndexMap := [0, 1]
  indexVectorDim := 3
  sliceSizes := ![1, 1, 128]
  wf := gather_S4x4096x128_S4x4096x16x2_S4x4096x16x128_3_01_n_n_01_3_11128_wf
def dot_S4x4096x16x256_S256x256_S4x4096x16x256_3_0_012_1_n_n : DotDims S4x4096x16x256 S256x256 S4x4096x16x256 where
  lhsContracting := [3]
  rhsContracting := [0]
  lhsNonContracting := [0, 1, 2]
  rhsNonContracting := [1]
  lhsBatch := []
  rhsBatch := []
  wf := dot_S4x4096x16x256_S256x256_S4x4096x16x256_3_0_012_1_n_n_wf
def dot_S4x4096x16x256_S256x128_S4x4096x16x128_3_0_012_1_n_n : DotDims S4x4096x16x256 S256x128 S4x4096x16x128 where
  lhsContracting := [3]
  rhsContracting := [0]
  lhsNonContracting := [0, 1, 2]
  rhsNonContracting := [1]
  lhsBatch := []
  rhsBatch := []
  wf := dot_S4x4096x16x256_S256x128_S4x4096x16x128_3_0_012_1_n_n_wf

class Facts : Prop extends Facts₀ where

variable [Facts]
-- ==== Proof.EdgeMlp.lean ====
/-
  The edge network of one node, as a function of plain coordinate-indexed families over the extended reals.

  For a node with its own feature row `self`, sixteen gathered neighbour rows `nbrs k` and a 0/1 (any integer) mask,
  each edge k goes through three dense layers

      h1 = max (nbr · W1[128:] + self · W1[:128] + b1) 0,   h2 = max (h1 · W2 + b2) 0,   e = h2 · W3 + b3,

  and the node's output is the masked sum  ∑ k, e k * mask k.  The first layer is written with the two halves of the
  first weight matrix summed apart; `layer1_of_joined` is the one algebraic law of the certificate: a sum over the 256
  joined input channels (own features first, the neighbour's after) splits into those two sums. It uses only that
  addition of extended reals is commutative and associative, so nothing here asks the inputs to be finite.
-/
import Idealize.ShloMosaic.PureOps.Ideal
import Idealize.ShloMosaic.Lib.ValueIdx

noncomputable section

namespace Cert.EdgeMlp

open Idealize.ShloMosaic Idealize.ShloMosaic.ValueIdx

/-- First layer of one edge: the neighbour's 128 channels against the lower half of the weights, the node's own 128
    against the upper half, the bias, then the ramp. -/
def layer1 (Wself Wnbr : Fin 128 → Fin 256 → EReal) (b1 : Fin 256 → EReal) (self nbr : Fin 128 → EReal)
    (h : Fin 256) : EReal :=
  max ((∑ i : Fin 128, nbr i * Wnbr i h + ∑ i : Fin 128, self i * Wself i h) + b1 h) 0

/-- Second layer: a 256 × 256 product, the bias, the ramp. -/
def layer2 (W2 : Fin 256 → Fin 256 → EReal) (b2 : Fin 256 → EReal) (x : Fin 256 → EReal) (j : Fin 256) : EReal :=
  max ((∑ h : Fin 256, x h * W2 h j) + b2 j) 0

/-- Third layer: a 256 × 128 product and the bias, no ramp. -/
def layer3 (W3 : Fin 256 → Fin 128 → EReal) (b3 : Fin 128 → EReal) (x : Fin 256 → EReal) (o : Fin 128) : EReal :=
  (∑ j : Fin 256, x j * W3 j o) + b3 o

/-- One edge's 128 output channels. -/
def edge (Wself Wnbr : Fin 128 → Fin 256 → EReal) (b1 : Fin 256 → EReal) (W2 : Fin 256 → Fin 256 → EReal)
    (b2 : Fin 256 → EReal) (W3 : Fin 256 → Fin 128 → EReal) (b3 : Fin 128 → EReal) (self nbr : Fin 128 → EReal)
    (o : Fin 128) : EReal :=
  layer3 W3 b3 (layer2 W2 b2 (layer1 Wself Wnbr b1 self nbr)) o

/-- One node's output channel: its sixteen edges, each times its mask entry, summed. -/
def node (Wself Wnbr : Fin 128 → Fin 256 → EReal) (b1 : Fin 256 → EReal) (W2 : Fin 256 → Fin 256 → EReal)
    (b2 : Fin 256 → EReal) (W3 : Fin 256 → Fin 128 → EReal) (b3 : Fin 128 → EReal) (self : Fin 128 → EReal)
    (nbrs : Fin 16 → Fin 128 → EReal) (mask : Fin 16 → EReal) (o : Fin 128) : EReal :=
  ∑ k : Fin 16, edge Wself Wnbr b1 W2 b2 W3 b3 self (nbrs k) o * mask k

/-- The first layer over the JOINED input: if `pair` is the node's own row on the first 128 channels and the
    neighbour's row on the last 128, the 256-term product with the whole first weight matrix is the two 128-term
    products, and the layer is `layer1` with the matrix's two halves. -/
theorem layer1_of_joined (W1 : Fin 256 → Fin 256 → EReal) (b1 : Fin 256 → EReal) (self nbr : Fin 128 → EReal)
    (pair : Fin 256 → EReal) (hs : ∀ i : Fin 128, pair (Fin.castAdd 128 i) = self i)
    (hn : ∀ i : Fin 128, pair (Fin.natAdd 128 i) = nbr i) (h : Fin 256) :
    max ((∑ q : Fin 256, pair q * W1 q h) + b1 h) 0
      = layer1 (fun i h => W1 (Fin.castAdd 128 i) h) (fun i h => W1 (Fin.natAdd 128 i) h) b1 self nbr h := by
  unfold layer1
  have e : (∑ q : Fin 256, pair q * W1 q h)
      = ∑ i : Fin 128, self i * W1 (Fin.castAdd 128 i) h + ∑ i : Fin 128, nbr i * W1 (Fin.natAdd 128 i) h := by
    rw [show (∑ q : Fin 256, pair q * W1 q h) = ∑ q : Fin (128 + 128), pair q * W1 q h from rfl, Fin.sum_univ_add]
    simp only [hs, hn]
  rw [e, add_comm (∑ i : Fin 128, self i * W1 (Fin.castAdd 128 i) h)]

/-- The whole result, node (b, n) of the [4, 4096] grid of nodes and output channel o, from the argument arrays and the
    gathered neighbour rows `nbrs` (an array [4, 4096, 16, 128]); the mask entries are the integers of `valid` read
    signed. -/
def G (feats : (⟨3, ![4, 4096, 128]⟩ : Shape).Idx → EReal) (nbrs : (⟨4, ![4, 4096, 16, 128]⟩ : Shape).Idx → EReal)
    (valid : (⟨3, ![4, 4096, 16]⟩ : Shape).Idx → BitVec 32) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 : (⟨1, ![128]⟩ : Shape).Idx → EReal) (b : Fin 4) (n : Fin 4096) (o : Fin 128) : EReal :=
  node (fun i h => W1 (ix2 (Fin.castAdd 128 i) h)) (fun i h => W1 (ix2 (Fin.natAdd 128 i) h)) (fun h => b1 (ix1 h))
    (fun h j => W2 (ix2 h j)) (fun j => b2 (ix1 j)) (fun j o => W3 (ix2 j o)) (fun o => b3 (ix1 o))
    (fun i => feats (ix3 b n i)) (fun k i => nbrs (ix4 b n k i)) (fun k => (((valid (ix3 b n k)).toInt : ℝ) : EReal)) o

end Cert.EdgeMlp

end
-- ==== Proof.KernelBlock.lean ====
/-
  The kernel body's stored value, read at one index of its [256, 128] block.

  For row p of the block and output channel o the body computes, from the block's own feature rows x0, its gathered
  neighbour rows x1, its mask rows x2, and the whole weight and bias arrays, the node function of EdgeMlp: the four
  matrix products are sums over the contracted channel, the reshapes between [256, 16, ·] and [4096, ·] pair row
  16 p + k with (p, k), the bias rows are broadcast along the rows, and the reduction over the neighbour axis is the
  sum over k.
-/
import proofs.«128306_j23158463660311_1_alg».proof.Proof.Gen.KernelIdeal.Skeleton
import proofs.«128306_j23158463660311_1_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The four matrix products at an index

Each product contracts the left operand's axis 1 with the right operand's axis 0, so its element (r, c) is
∑ k, a (r, k) * b (k, c). Per product: the four coordinate facts of the operand indices, then the re-indexing of the
contraction's sum by its one coordinate. -/

theorem lhsSelf_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhsSelf_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhsSelf_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhsSelf_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The node's own rows against the upper half of the first weight matrix. -/
theorem dotSelf_apply (a : FVec Ideal S256x128 .bf16) (b : FVec Ideal S128x256 .bf16) (r : Fin 256) (c : Fin 256) :
    matmul (F := Ideal) dot_S256x128_S128x256_S256x256_1_0_0_1_n_n none a b (constant (F := Ideal) S256x256 .f32 0x00000000#32) (ix2 r c)
      = ∑ k : Fin 128, a (ix2 r k) * b (ix2 k c) := by
  refine (Ideal.matmul_constant_zero_apply dot_S256x128_S128x256_S256x256_1_0_0_1_n_n none a b (ix2 r c)).trans ?_
  rw [← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 r c) ((contrEquiv1 dot_S256x128_S128x256_S256x256_1_0_0_1_n_n 128 rfl rfl).symm k) = ix2 r k := funext fun ax => Fin.ext (by
    match ax with
    | ⟨0, _⟩ => exact lhsSelf_0 _ _
    | ⟨1, _⟩ => exact (lhsSelf_1 _ _).trans hk)
  have er : dot_S256x128_S128x256_S256x256_1_0_0_1_n_n.rhsIdx (ix2 r c) ((contrEquiv1 dot_S256x128_S128x256_S256x256_1_0_0_1_n_n 128 rfl rfl).symm k) = ix2 k c := funext fun ax => Fin.ext (by
    match ax with
    | ⟨0, _⟩ => exact (rhsSelf_0 _ _).trans hk
    | ⟨1, _⟩ => exact rhsSelf_1 _ _)
  rw [el, er]
theorem lhsNbr_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhsNbr_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhsNbr_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhsNbr_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The gathered neighbour rows, one per edge, against the lower half of the first weight matrix. -/
theorem dotNbr_apply (a : FVec Ideal S4096x128 .bf16) (b : FVec Ideal S128x256 .bf16) (r : Fin 4096) (c : Fin 256) :
    matmul (F := Ideal) dot_S4096x128_S128x256_S4096x256_1_0_0_1_n_n none a b (constant (F := Ideal) S4096x256 .f32 0x00000000#32) (ix2 r c)
      = ∑ k : Fin 128, a (ix2 r k) * b (ix2 k c) := by
  refine (Ideal.matmul_constant_zero_apply dot_S4096x128_S128x256_S4096x256_1_0_0_1_n_n none a b (ix2 r c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r c) ((contrEquiv1 dot_S4096x128_S128x256_S4096x256_1_0_0_1_n_n 128 rfl rfl).symm k) = ix2 r k := funext fun ax => Fin.ext (by
    match ax with
    | ⟨0, _⟩ => exact lhsNbr_0 _ _
    | ⟨1, _⟩ => exact (lhsNbr_1 _ _).trans hk)
  have er : dot_S4096x128_S128x256_S4096x256_1_0_0_1_n_n.rhsIdx (ix2 r c) ((contrEquiv1 dot_S4096x128_S128x256_S4096x256_1_0_0_1_n_n 128 rfl rfl).symm k) = ix2 k c := funext fun ax => Fin.ext (by
    match ax with
    | ⟨0, _⟩ => exact (rhsNbr_0 _ _).trans hk
    | ⟨1, _⟩ => exact rhsNbr_1 _ _)
  rw [el, er]
theorem lhsMid_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsMid_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsMid_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsMid_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The first layer's rows against the second weight matrix. -/
theorem dotMid_apply (a : FVec Ideal S4096x256 .bf16) (b : FVec Ideal S256x256 .bf16) (r : Fin 4096) (c : Fin 256) :
    matmul (F := Ideal) dot_S4096x256_S256x256_S4096x256_1_0_0_1_n_n none a b (constant (F := Ideal) S4096x256 .f32 0x00000000#32) (ix2 r c)
      = ∑ k : Fin 256, a (ix2 r k) * b (ix2 k c) := by
  refine (Ideal.matmul_constant_zero_apply dot_S4096x256_S256x256_S4096x256_1_0_0_1_n_n none a b (ix2 r c)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun ax => Fin.ext (by
    match ax with
    | ⟨0, _⟩ => exact lhsMid_0 _ _
    | ⟨1, _⟩ => exact (lhsMid_1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun ax => Fin.ext (by
    match ax with
    | ⟨0, _⟩ => exact (rhsMid_0 _ _).trans hk
    | ⟨1, _⟩ => exact rhsMid_1 _ _)
  rw [el, er]
theorem lhsOut_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhsOut_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhsOut_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhsOut_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The second layer's rows against the third weight matrix. -/
theorem dotOut_apply (a : FVec Ideal S4096x256 .bf16) (b : FVec Ideal S256x128 .bf16) (r : Fin 4096) (c : Fin 128) :
    matmul (F := Ideal) dot_S4096x256_S256x128_S4096x128_1_0_0_1_n_n none a b (constant (F := Ideal) S4096x128 .f32 0x00000000#32) (ix2 r c)
      = ∑ k : Fin 256, a (ix2 r k) * b (ix2 k c) := by
  refine (Ideal.matmul_constant_zero_apply dot_S4096x256_S256x128_S4096x128_1_0_0_1_n_n none a b (ix2 r c)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r c) ((contrEquiv1 dot_S4096x256_S256x128_S4096x128_1_0_0_1_n_n 256 rfl rfl).symm k) = ix2 r k := funext fun ax => Fin.ext (by
    match ax with
    | ⟨0, _⟩ => exact lhsOut_0 _ _
    | ⟨1, _⟩ => exact (lhsOut_1 _ _).trans hk)
  have er : dot_S4096x256_S256x128_S4096x128_1_0_0_1_n_n.rhsIdx (ix2 r c) ((contrEquiv1 dot_S4096x256_S256x128_S4096x128_1_0_0_1_n_n 256 rfl rfl).symm k) = ix2 k c := funext fun ax => Fin.ext (by
    match ax with
    | ⟨0, _⟩ => exact (rhsOut_0 _ _).trans hk
    | ⟨1, _⟩ => exact rhsOut_1 _ _)
  rw [el, er]

/-! ## Reshapes, broadcasts and the neighbour sum at coordinates

The [4096, ·] arrays hold one row per edge: edge k of node p is row 16 p + k, and a reshape between [256, 16, c] and
[4096, c] pairs the two by their common row-major position. The other reshapes only add unit axes; the broadcasts repeat
the operand along the axes where it has extent one. -/

/-- The row of a [4096, ·] array that holds edge k of node p. -/
def row (p : Fin 256) (k : Fin 16) : Fin 4096 := ⟨p.val * 16 + k.val, by omega⟩

/-- [256, 16, c] read as [4096, c]: row 16 p + k is (p, k). -/
theorem cast_join_apply {c : ℕ} {α : Type} (x : (⟨3, ![256, 16, c]⟩ : Shape).Idx → α)
    (h : (⟨3, ![256, 16, c]⟩ : Shape).ShapeCasts ⟨2, ![4096, c]⟩) (p : Fin 256) (k : Fin 16) (i : Fin c) :
    shapeCast ⟨2, ![4096, c]⟩ x h (ix2 (row p k) i) = x (ix3 p k i) :=
  shapeCast_apply x h _ _ (by
    rw [Shape.rowMajor_val_three, Shape.rowMajor_val_two]
    rfl)

/-- [4096, c] read as [256, 16, c]: (p, k) is row 16 p + k. -/
theorem cast_split_apply {c : ℕ} {α : Type} (x : (⟨2, ![4096, c]⟩ : Shape).Idx → α)
    (h : (⟨2, ![4096, c]⟩ : Shape).ShapeCasts ⟨3, ![256, 16, c]⟩) (p : Fin 256) (k : Fin 16) (i : Fin c) :
    shapeCast ⟨3, ![256, 16, c]⟩ x h (ix3 p k i) = x (ix2 (row p k) i) :=
  shapeCast_apply x h _ _ (by
    rw [Shape.rowMajor_val_three, Shape.rowMajor_val_two]
    rfl)

/-- [a, b] read as [a, 1, b]. -/
theorem cast_mid_unit_apply {a b : ℕ} {α : Type} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-- [n] read as [1, 1, n]. -/
theorem cast_two_units_apply {n : ℕ} {α : Type} (x : (⟨1, ![n]⟩ : Shape).Idx → α)
    (h : (⟨1, ![n]⟩ : Shape).ShapeCasts ⟨3, ![1, 1, n]⟩) (u v : Fin 1) (j : Fin n) :
    shapeCast ⟨3, ![1, 1, n]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * n + j.val
    rw [hu, hv, Nat.zero_mul, Nat.zero_add])

/-- [a, b] read as [a, b, 1]. -/
theorem cast_last_unit_apply {a b : ℕ} {α : Type} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- A [256, 1, 256] array repeated along the sixteen edges. -/
theorem bcast_edges_apply {α : Type} (x : S256x1x256.Idx → α) (h : S256x1x256.Broadcasts S256x16x256)
    (p : Fin 256) (k : Fin 16) (j : Fin 256) :
    broadcastTo S256x16x256 x h (ix3 p k j) = x (ix3 p (0 : Fin 1) j) := by
  refine broadcastTo_apply x h (ix3 p k j) (ix3 p (0 : Fin 1) j) fun ax => ?_
  match ax with
  | ⟨0, _⟩ => rfl
  | ⟨1, _⟩ => rfl
  | ⟨2, _⟩ => rfl

/-- A [1, 1, 256] row repeated over every node and edge. -/
theorem bcast_row3_apply {α : Type} (x : S1x1x256.Idx → α) (h : S1x1x256.Broadcasts S256x16x256)
    (p : Fin 256) (k : Fin 16) (j : Fin 256) :
    broadcastTo S256x16x256 x h (ix3 p k j) = x (ix3 (0 : Fin 1) (0 : Fin 1) j) := by
  refine broadcastTo_apply x h (ix3 p k j) (ix3 (0 : Fin 1) (0 : Fin 1) j) fun ax => ?_
  match ax with
  | ⟨0, _⟩ => rfl
  | ⟨1, _⟩ => rfl
  | ⟨2, _⟩ => rfl

/-- A [256, 16, 1] column repeated along the 128 output channels. -/
theorem bcast_chan_apply {α : Type} (x : S256x16x1.Idx → α) (h : S256x16x1.Broadcasts S256x16x128)
    (p : Fin 256) (k : Fin 16) (o : Fin 128) :
    broadcastTo S256x16x128 x h (ix3 p k o) = x (ix3 p k (0 : Fin 1)) := by
  refine broadcastTo_apply x h (ix3 p k o) (ix3 p k (0 : Fin 1)) fun ax => ?_
  match ax with
  | ⟨0, _⟩ => rfl
  | ⟨1, _⟩ => rfl
  | ⟨2, _⟩ => rfl

/-- The sum over the neighbour axis of a [256, 16, 128] array, at (p, o): the sixteen entries (p, k, o). -/
theorem sum_edges_apply (src : FVec Ideal S256x16x128 .f32) (p : Fin 256) (o : Fin 128) :
    multiReduction (F := Ideal) .add [1] S256x128 src 0x00000000#32 reduces_S256x16x128_S256x128 (.inl rfl) rfl (ix2 p o)
      = ∑ k : Fin 16, src (ix3 p k o) := by
  refine (Ideal.multiReduction_add_single src _ reduces_S256x16x128_S256x128 (.inl rfl) rfl (ix2 p o)).trans ?_
  refine Finset.sum_congr rfl fun k _ => congrArg src (funext fun ax => Fin.ext (by
    match ax with
    | ⟨0, _⟩ => rfl
    | ⟨1, _⟩ => rfl
    | ⟨2, _⟩ => rfl))

/-! ## The two ramps at an index -/

/-- The first layer's activation at (p, k, h), from the edge product `nb`, the node product `sf` and the bias. -/
theorem act1_apply (nb : FVec Ideal S4096x256 .f32) (sf : FVec Ideal S256x256 .f32) (b : Vec Ideal S256 .f32)
    (p : Fin 256) (k : Fin 16) (h : Fin 256) :
    truncf .bf16 (maximumf (addf (addf (shapeCast S256x16x256 nb shapeCasts_S4096x256_S256x16x256)
          (broadcastTo S256x16x256 (shapeCast S256x1x256 sf shapeCasts_S256x256_S256x1x256) broadcasts_S256x1x256_S256x16x256))
        (broadcastTo S256x16x256 (shapeCast S1x1x256 b shapeCasts_S256_S1x1x256) broadcasts_S1x1x256_S256x16x256))
      (broadcast S256x16x256 (Scalar.ofBits (F := Ideal) .f32 0x00000000#32))) bitsLt_bf16_f32 (ix3 p k h)
      = max ((nb (ix2 (row p k) h) + sf (ix2 p h)) + b (ix1 h)) 0 := by
  show max ((shapeCast S256x16x256 nb shapeCasts_S4096x256_S256x16x256 (ix3 p k h)
      + broadcastTo S256x16x256 (shapeCast S256x1x256 sf shapeCasts_S256x256_S256x1x256) broadcasts_S256x1x256_S256x16x256 (ix3 p k h))
      + broadcastTo S256x16x256 (shapeCast S1x1x256 b shapeCasts_S256_S1x1x256) broadcasts_S1x1x256_S256x16x256 (ix3 p k h))
      (Ideal.ofBits .f32 0x00000000#32) = _
  rw [cast_split_apply, bcast_edges_apply, cast_mid_unit_apply, bcast_row3_apply, cast_two_units_apply, Ideal.ofBits_zero_f32]

/-- The second layer's activation at (r, j), from the product `m` and the bias. -/
theorem act2_apply (m : FVec Ideal S4096x256 .f32) (b : Vec Ideal S256 .f32) (r : Fin 4096) (j : Fin 256) :
    truncf .bf16 (maximumf (addf m (broadcastTo S4096x256 (shapeCast S1x256 b shapeCasts_S256_S1x256) broadcasts_S1x256_S4096x256))
      (broadcast S4096x256 (Scalar.ofBits (F := Ideal) .f32 0x00000000#32))) bitsLt_bf16_f32 (ix2 r j)
      = max (m (ix2 r j) + b (ix1 j)) 0 := by
  show max (m (ix2 r j) + broadcastTo S4096x256 (shapeCast S1x256 b shapeCasts_S256_S1x256) broadcasts_S1x256_S4096x256 (ix2 r j))
      (Ideal.ofBits .f32 0x00000000#32) = _
  rw [broadcastTo_1b_ab_apply, shapeCast_a_1a_apply, Ideal.ofBits_zero_f32]

/-! ## The payloads -/

/-- The last product at row 16 p + k and channel o: the second layer of edge k of node p against the third weight
    matrix, before the third bias. -/
theorem pay2_apply (x0 : Vec Ideal S256x128 .bf16) (x1 : Vec Ideal S256x16x128 .bf16)
    (x3 x4 : Vec Ideal S128x256 .bf16) (x5 : Vec Ideal S256 .f32) (x6 : Vec Ideal S256x256 .bf16)
    (x7 : Vec Ideal S256 .f32) (x8 : Vec Ideal S256x128 .bf16) (p : Fin 256) (k : Fin 16) (o : Fin 128) :
    k0_pay2 (F := Ideal) x0 x1 x3 x4 x5 x6 x7 x8 (ix2 (row p k) o)
      = ∑ j : Fin 256, Cert.EdgeMlp.layer2 (fun h j => x6 (ix2 h j)) (fun j => x7 (ix1 j))
          (Cert.EdgeMlp.layer1 (fun i h => x3 (ix2 i h)) (fun i h => x4 (ix2 i h)) (fun h => x5 (ix1 h))
            (fun i => x0 (ix2 p i)) (fun i => x1 (ix3 p k i))) j * x8 (ix2 j o) := by
  unfold k0_pay2
  refine (dotOut_apply _ _ (row p k) o).trans ?_
  refine Finset.sum_congr rfl fun j _ => ?_
  refine congrArg₂ (· * ·) ?_ (congrFun (shapeCast_self x8 _) _)
  refine (act2_apply _ _ (row p k) j).trans ?_
  unfold Cert.EdgeMlp.layer2
  refine congrArg (fun t => max (t + x7 (ix1 j)) 0) ?_
  refine (dotMid_apply _ _ (row p k) j).trans ?_
  refine Finset.sum_congr rfl fun h _ => ?_
  refine congrArg₂ (· * ·) ?_ (congrFun (shapeCast_self x6 _) _)
  refine (cast_join_apply _ _ p k h).trans ?_
  refine (act1_apply _ _ _ p k h).trans ?_
  unfold Cert.EdgeMlp.layer1
  refine congrArg₂ (fun s t => max ((s + t) + x5 (ix1 h)) 0) ?_ ?_
  · refine (dotNbr_apply _ _ (row p k) h).trans ?_
    refine Finset.sum_congr rfl fun i _ => ?_
    refine congrArg₂ (· * ·) ?_ (congrFun (shapeCast_self x4 _) _)
    refine (cast_join_apply _ _ p k i).trans ?_
    exact congrFun (shapeCast_self x1 _) _
  · refine (dotSelf_apply _ _ p h).trans ?_
    refine Finset.sum_congr rfl fun i _ => ?_
    exact congrArg₂ (· * ·) (congrFun (shapeCast_self x0 _) _) (congrFun (shapeCast_self x3 _) _)

/-- The stored value at (p, o) is the node function of the block's row p. -/
theorem payload_apply (x0 : Vec Ideal S256x128 .bf16) (x1 : Vec Ideal S256x16x128 .bf16) (x2 : Vec Ideal S256x16 .i32)
    (x3 x4 : Vec Ideal S128x256 .bf16) (x5 : Vec Ideal S256 .f32) (x6 : Vec Ideal S256x256 .bf16)
    (x7 : Vec Ideal S256 .f32) (x8 : Vec Ideal S256x128 .bf16) (x9 : Vec Ideal S128 .f32) (p : Fin 256) (o : Fin 128) :
    k0_pay1 (F := Ideal) x9 (k0_pay2 (F := Ideal) x0 x1 x3 x4 x5 x6 x7 x8) x2 (ix2 p o)
      = Cert.EdgeMlp.node (fun i h => x3 (ix2 i h)) (fun i h => x4 (ix2 i h)) (fun h => x5 (ix1 h))
          (fun h j => x6 (ix2 h j)) (fun j => x7 (ix1 j)) (fun j o => x8 (ix2 j o)) (fun o => x9 (ix1 o))
          (fun i => x0 (ix2 p i)) (fun k i => x1 (ix3 p k i)) (fun k => (((x2 (ix2 p k)).toInt : ℝ) : EReal)) o := by
  unfold k0_pay1
  dsimp only
  refine (sum_edges_apply _ p o).trans ?_
  unfold Cert.EdgeMlp.node Cert.EdgeMlp.edge Cert.EdgeMlp.layer3
  refine Finset.sum_congr rfl fun k _ => ?_
  refine (mulf_apply _ _ _).trans ?_
  refine congrArg₂ (· * ·) ?_ ?_
  · refine (cast_split_apply _ _ p k o).trans ?_
    refine (addf_apply _ _ _).trans ?_
    refine congrArg₂ (· + ·) (pay2_apply x0 x1 x3 x4 x5 x6 x7 x8 p k o) ?_
    refine (broadcastTo_1b_ab_apply _ _ _ _).trans ?_
    exact shapeCast_a_1a_apply x9 _ _ _
  · refine (bcast_chan_apply _ _ p k o).trans ?_
    refine (cast_last_unit_apply _ _ p k (0 : Fin 1)).trans ?_
    exact congrArg (fun w : BitVec 32 => ((w.toInt : ℝ) : EReal)) (congrFun (shapeCast_self x2 _) _)

end Cert.KernelIdeal.Block

end
-- ==== Proof.KernelArrays.lean ====
/-
  The arrays the kernel's region finds in its windows, read at an index.

  Before the region the host code rounds the features and the weights to a narrower float format (the identity on the
  extended reals), gathers each node's sixteen neighbour rows, cuts the first weight matrix into its upper and lower
  halves, and flattens the [4, 4096] grid of nodes to 16384 rows: row r is node (r / 4096, r % 4096).
-/
import proofs.«128306_j23158463660311_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem Idealize.ShloMosaic.ValueIdx

/-- The gathered neighbour rows as the host code before the region computes them from the feature array and the index
    array: negative indices wrapped once, the batch coordinate prepended, rows taken from the rounded features. -/
def nbrs (feats : FVec Ideal S4x4096x128 .f32) (idx : IVec S4x4096x16 32) : FVec Ideal S4x4096x16x128 .bf16 :=
  Host.gather gather_S4x4096x128_S4x4096x16x2_S4x4096x16x128_3_01_n_n_01_3_11128 (truncf (F := Ideal) .bf16 feats bitsLt_bf16_f32)
    (concatenate S4x4096x16x2 3
      [⟨S4x4096x16x1, broadcastInDim S4x4096x16x1 ![0, 1, 2] bcast_S4x4096x16_S4x4096x16x1_0_1_2
          (broadcastInDim S4x4096x16 ![0, 1, 2] bcast_S4x1x1_S4x4096x16_0_1_2
            (select (cmpi .slt (broadcastInDim S4x1x1 ![0] bcast_S4_S4x1x1_0 (iotaInDim S4 32 0)) (broadcastInDim S4x1x1 ![] bcast_S_S4x1x1 (constantI S_ 32 0#32)))
              (addi (broadcastInDim S4x1x1 ![0] bcast_S4_S4x1x1_0 (iotaInDim S4 32 0)) (broadcastInDim S4x1x1 ![] bcast_S_S4x1x1 (constantI S_ 32 4#32)))
              (broadcastInDim S4x1x1 ![0] bcast_S4_S4x1x1_0 (iotaInDim S4 32 0))))⟩,
       ⟨S4x4096x16x1, broadcastInDim S4x4096x16x1 ![0, 1, 2] bcast_S4x4096x16_S4x4096x16x1_0_1_2
          (select (cmpi .slt idx (broadcastInDim S4x4096x16 ![] bcast_S_S4x4096x16 (constantI S_ 32 0#32)))
            (addi idx (broadcastInDim S4x4096x16 ![] bcast_S_S4x4096x16 (constantI S_ 32 4096#32))) idx)⟩]
      concatenates_S4x4096x16x1_S4x4096x16x1_S4x4096x16x2_d3)

variable (m : (ℓ : Loc nD τ sig) → Buf (Elt Ideal) ℓ) (c : Dev nD)

/-- Window 0's array: the features, flattened. -/
theorem feats_flat (r : Fin 16384) (i : Fin 128) :
    V m c main_v18 (ix2 r i) = m ((c : Thread nD τ).loc main_arg2) (ix3 ⟨r.val / 4096, by omega⟩ ⟨r.val % 4096, Nat.mod_lt _ (by decide)⟩ i) := by
  have e : (V m c main_v18 : S16384x128.Idx → EReal)
      = shapeCast S16384x128 (truncf (F := Ideal) .bf16 (m ((c : Thread nD τ).loc main_arg2)) bitsLt_bf16_f32)
          shapeCasts_S4x4096x128_S16384x128 := by
    show StableHlo.after hostOps0 (fun b => m (c, b)) (Proc.devRef .tc main_v18) = _
    after_results
    rfl
  refine (congrFun e (ix2 r i)).trans ?_
  -- a reshape keeps the row-major position, and (r / 4096) * 4096 + r % 4096 = r; the rounding is the identity
  refine (shapeCast_apply _ _ _ (ix3 ⟨r.val / 4096, by omega⟩ ⟨r.val % 4096, Nat.mod_lt _ (by decide)⟩ i) ?_).trans rfl
  rw [Shape.rowMajor_val_three, Shape.rowMajor_val_two]
  show (r.val / 4096 * 4096 + r.val % 4096) * 128 + i.val = r.val * 128 + i.val
  omega

/-- Window 1's array: the gathered neighbour rows, flattened. -/
theorem nbrs_flat (r : Fin 16384) (k : Fin 16) (i : Fin 128) :
    V m c main_v19 (ix3 r k i)
      = nbrs (m ((c : Thread nD τ).loc main_arg2)) (m ((c : Thread nD τ).loc main_arg3))
          (ix4 ⟨r.val / 4096, by omega⟩ ⟨r.val % 4096, Nat.mod_lt _ (by decide)⟩ k i) := by
  have e : (V m c main_v19 : S16384x16x128.Idx → EReal)
      = shapeCast S16384x16x128 (nbrs (m ((c : Thread nD τ).loc main_arg2)) (m ((c : Thread nD τ).loc main_arg3)))
          shapeCasts_S4x4096x16x128_S16384x16x128 := by
    show StableHlo.after hostOps0 (fun b => m (c, b)) (Proc.devRef .tc main_v19) = _
    after_results_simp
    unfold nbrs
    rfl
  refine (congrFun e (ix3 r k i)).trans ?_
  -- the same row-major position on both sides of the reshape
  refine shapeCast_apply _ _ _ (ix4 ⟨r.val / 4096, by omega⟩ ⟨r.val % 4096, Nat.mod_lt _ (by decide)⟩ k i) ?_
  rw [Shape.rowMajor_val_four, Shape.rowMajor_val_three]
  show ((r.val / 4096 * 4096 + r.val % 4096) * 16 + k.val) * 128 + i.val = (r.val * 16 + k.val) * 128 + i.val
  omega

/-- Window 2's array: the mask, flattened. -/
theorem valid_flat (r : Fin 16384) (k : Fin 16) :
    V m c main_v20 (ix2 r k) = m ((c : Thread nD τ).loc main_arg4) (ix3 ⟨r.val / 4096, by omega⟩ ⟨r.val % 4096, Nat.mod_lt _ (by decide)⟩ k) := by
  have e : (V m c main_v20 : S16384x16.Idx → BitVec 32)
      = shapeCast S16384x16 (m ((c : Thread nD τ).loc main_arg4)) shapeCasts_S4x4096x16_S16384x16 := by
    show StableHlo.after hostOps0 (fun b => m (c, b)) (Proc.devRef .tc main_v20) = _
    after_results
    rfl
  refine (congrFun e (ix2 r k)).trans ?_
  -- the same row-major position on both sides of the reshape
  refine shapeCast_apply _ _ _ (ix3 ⟨r.val / 4096, by omega⟩ ⟨r.val % 4096, Nat.mod_lt _ (by decide)⟩ k) ?_
  rw [Shape.rowMajor_val_three, Shape.rowMajor_val_two]
  show (r.val / 4096 * 4096 + r.val % 4096) * 16 + k.val = r.val * 16 + k.val
  omega

/-- Window 3's array: the upper half of the first weight matrix (the rows that meet a node's own features). -/
theorem w1_upper (i : Fin 128) (h : Fin 256) :
    V m c main_v22 (ix2 i h) = m ((c : Thread nD τ).loc main_arg5) (ix2 (Fin.castAdd 128 i) h) := by
  have e : (V m c main_v22 : S128x256.Idx → EReal)
      = truncf (F := Ideal) .bf16
          (extractStridedSlice S128x256 ![0, 0] (m ((c : Thread nD τ).loc main_arg5)) slices_S256x256_S128x256_0_0)
          bitsLt_bf16_f32 := by
    show StableHlo.after hostOps0 (fun b => m (c, b)) (Proc.devRef .tc main_v22) = _
    after_results
  refine (congrFun e (ix2 i h)).trans ?_
  rw [truncf_apply]
  -- the slice starts at row 0, column 0: row i of it is row i of the matrix
  refine extractStridedSlice_apply _ _ _ (ix2 i h) (ix2 (Fin.castAdd 128 i) h) fun a => ?_
  match a with
  | ⟨0, _⟩ => show i.val = 0 + i.val; omega
  | ⟨1, _⟩ => show h.val = 0 + h.val; omega

/-- Window 4's array: the lower half of the first weight matrix (the rows that meet a neighbour's features). -/
theorem w1_lower (i : Fin 128) (h : Fin 256) :
    V m c main_v24 (ix2 i h) = m ((c : Thread nD τ).loc main_arg5) (ix2 (Fin.natAdd 128 i) h) := by
  have e : (V m c main_v24 : S128x256.Idx → EReal)
      = truncf (F := Ideal) .bf16
          (extractStridedSlice S128x256 ![128, 0] (m ((c : Thread nD τ).loc main_arg5)) slices_S256x256_S128x256_128_0)
          bitsLt_bf16_f32 := by
    show StableHlo.after hostOps0 (fun b => m (c, b)) (Proc.devRef .tc main_v24) = _
    after_results
  refine (congrFun e (ix2 i h)).trans ?_
  rw [truncf_apply]
  -- the slice starts at row 128, column 0: row i of it is row 128 + i of the matrix
  refine extractStridedSlice_apply _ _ _ (ix2 i h) (ix2 (Fin.natAdd 128 i) h) fun a => ?_
  match a with
  | ⟨0, _⟩ => show 128 + i.val = 128 + i.val; rfl
  | ⟨1, _⟩ => show h.val = 0 + h.val; omega

/-- Window 6's array: the second weight matrix. -/
theorem w2_same (h j : Fin 256) : V m c main_v25 (ix2 h j) = m ((c : Thread nD τ).loc main_arg7) (ix2 h j) := by
  have e : (V m c main_v25 : S256x256.Idx → EReal)
      = truncf (F := Ideal) .bf16 (m ((c : Thread nD τ).loc main_arg7)) bitsLt_bf16_f32 := by
    show StableHlo.after hostOps0 (fun b => m (c, b)) (Proc.devRef .tc main_v25) = _
    after_results
  exact congrFun e (ix2 h j)

/-- Window 8's array: the third weight matrix. -/
theorem w3_same (j : Fin 256) (o : Fin 128) : V m c main_v26 (ix2 j o) = m ((c : Thread nD τ).loc main_arg9) (ix2 j o) := by
  have e : (V m c main_v26 : S256x128.Idx → EReal)
      = truncf (F := Ideal) .bf16 (m ((c : Thread nD τ).loc main_arg9)) bitsLt_bf16_f32 := by
    show StableHlo.after hostOps0 (fun b => m (c, b)) (Proc.devRef .tc main_v26) = _
    after_results
  exact congrFun e (ix2 j o)

end Cert.KernelIdeal.Arrays

end
-- ==== Proof.KernelValue.lean ====
/-
  The kernel's run with its result named.

  The region's output window tiles a [16384, 128] array by 64 blocks of 256 rows; point t reads rows 256 t .. 256 t + 255
  of the flattened features, neighbour rows and mask, and the whole weight and bias arrays, and writes back the node
  function of each of its rows. So the array ends holding, at row r and channel o, the node function of node
  (r / 4096, r % 4096); the reshape after the region lays those rows out as [4, 4096, 128].
-/
import proofs.«128306_j23158463660311_1_alg».proof.Proof.Gen.KernelIdeal.Frame
import proofs.«128306_j23158463660311_1_alg».proof.Proof.EdgeMlp
import proofs.«128306_j23158463660311_1_alg».proof.Proof.KernelBlock
import proofs.«128306_j23158463660311_1_alg».proof.Proof.KernelArrays
import Idealize.ShloMosaic.Lib.Pipeline.Value
import Idealize.ShloMosaic.Lib.ValueIdx
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 64 grid points: the three row-blocked inputs and the output sit at block t of
    their row axis, every other block index is zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

theorem N_eq : cfg0.N = 64 := N_0

/-- The [16384, 128] array the output window ends holding: row r is node (r / 4096, r % 4096). -/
def flat (c : Dev nD) : S16384x128.Idx → EReal := fun j =>
  Cert.EdgeMlp.G (m ((c : Thread nD τ).loc main_arg2))
    (Arrays.nbrs (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))
    ⟨(j 0).val / 4096, by have h : (j 0).val < 16384 := (j 0).isLt; omega⟩
    ⟨(j 0).val % 4096, Nat.mod_lt _ (by decide)⟩ (j 1)

/-! ## Each input window's block at a point, read at an index of the array -/

theorem blk0 (c : Dev nD) (t : Fin cfg0.N) (p : Fin 256) (i : Fin 128) (hr : t.val * 256 + p.val < 16384) :
    iblk m c 0 t (ix2 p i) = V m c main_v18 (ix2 ⟨t.val * 256 + p.val, hr⟩ i) := by
  obtain ⟨e0, e1, -⟩ := idx_facts t
  show V m c main_v18 (((cfg0.win 0).blk t).view.emb (ix2 p i)) = V m c main_v18 _
  refine congrArg (V m c main_v18) (funext fun a => Fin.ext ?_)
  match a with
  | ⟨0, _⟩ => show win0_0.index t (0 : Fin 2) * 256 + 1 * p.val = t.val * 256 + p.val; omega
  | ⟨1, _⟩ => show win0_0.index t (1 : Fin 2) * 128 + 1 * i.val = i.val; omega

theorem blk1 (c : Dev nD) (t : Fin cfg0.N) (p : Fin 256) (k : Fin 16) (i : Fin 128) (hr : t.val * 256 + p.val < 16384) :
    iblk m c 1 t (ix3 p k i) = V m c main_v19 (ix3 ⟨t.val * 256 + p.val, hr⟩ k i) := by
  obtain ⟨e0, e1, e2, e3, e4, e5, e6, e7, e8, e9, e10, e11, e12, e13, e14, e15, e16, e17, e18, e19⟩ := idx_facts t
  show V m c main_v19 (((cfg0.win 1).blk t).view.emb (ix3 p k i)) = V m c main_v19 _
  refine congrArg (V m c main_v19) (funext fun a => Fin.ext ?_)
  match a with
  | ⟨0, _⟩ => show win0_1.index t (0 : Fin 3) * 256 + 1 * p.val = t.val * 256 + p.val; omega
  | ⟨1, _⟩ => show win0_1.index t (1 : Fin 3) * 16 + 1 * k.val = k.val; omega
  | ⟨2, _⟩ => show win0_1.index t (2 : Fin 3) * 128 + 1 * i.val = i.val; omega

theorem blk2 (c : Dev nD) (t : Fin cfg0.N) (p : Fin 256) (k : Fin 16) (hr : t.val * 256 + p.val < 16384) :
    iblk m c 2 t (ix2 p k) = V m c main_v20 (ix2 ⟨t.val * 256 + p.val, hr⟩ k) := by
  obtain ⟨e0, e1, e2, e3, e4, e5, e6, e7, e8, e9, e10, e11, e12, e13, e14, e15, e16, e17, e18, e19⟩ := idx_facts t
  show V m c main_v20 (((cfg0.win 2).blk t).view.emb (ix2 p k)) = V m c main_v20 _
  refine congrArg (V m c main_v20) (funext fun a => Fin.ext ?_)
  match a with
  | ⟨0, _⟩ => show win0_2.index t (0 : Fin 2) * 256 + 1 * p.val = t.val * 256 + p.val; omega
  | ⟨1, _⟩ => show win0_2.index t (1 : Fin 2) * 16 + 1 * k.val = k.val; omega

theorem blk3 (c : Dev nD) (t : Fin cfg0.N) (i : Fin 128) (h : Fin 256) :
    iblk m c 3 t (ix2 i h) = V m c main_v22 (ix2 i h) := by
  obtain ⟨e0, e1, e2, e3, e4, e5, e6, e7, e8, e9, e10, e11, e12, e13, e14, e15, e16, e17, e18, e19⟩ := idx_facts t
  show V m c main_v22 (((cfg0.win 3).blk t).view.emb (ix2 i h)) = V m c main_v22 _
  refine congrArg (V m c main_v22) (funext fun a => Fin.ext ?_)
  match a with
  | ⟨0, _⟩ => show win0_3.index t (0 : Fin 2) * 128 + 1 * i.val = i.val; omega
  | ⟨1, _⟩ => show win0_3.index t (1 : Fin 2) * 256 + 1 * h.val = h.val; omega

theorem blk4 (c : Dev nD) (t : Fin cfg0.N) (i : Fin 128) (h : Fin 256) :
    iblk m c 4 t (ix2 i h) = V m c main_v24 (ix2 i h) := by
  obtain ⟨e0, e1, e2, e3, e4, e5, e6, e7, e8, e9, e10, e11, e12, e13, e14, e15, e16, e17, e18, e19⟩ := idx_facts t
  show V m c main_v24 (((cfg0.win 4).blk t).view.emb (ix2 i h)) = V m c main_v24 _
  refine congrArg (V m c main_v24) (funext fun a => Fin.ext ?_)
  match a with
  | ⟨0, _⟩ => show win0_4.index t (0 : Fin 2) * 128 + 1 * i.val = i.val; omega
  | ⟨1, _⟩ => show win0_4.index t (1 : Fin 2) * 256 + 1 * h.val = h.val; omega

theorem blk5 (c : Dev nD) (t : Fin cfg0.N) (h : Fin 256) :
    iblk m c 5 t (ix1 h) = V m c main_arg6 (ix1 h) := by
  obtain ⟨e0, e1, e2, e3, e4, e5, e6, e7, e8, e9, e10, e11, e12, e13, e14, e15, e16, e17, e18, e19⟩ := idx_facts t
  show V m c main_arg6 (((cfg0.win 5).blk t).view.emb (ix1 h)) = V m c main_arg6 _
  refine congrArg (V m c main_arg6) (funext fun a => Fin.ext ?_)
  match a with
  | ⟨0, _⟩ => show win0_5.index t (0 : Fin 1) * 256 + 1 * h.val = h.val; omega

theorem blk6 (c : Dev nD) (t : Fin cfg0.N) (h j : Fin 256) :
    iblk m c 6 t (ix2 h j) = V m c main_v25 (ix2 h j) := by
  obtain ⟨e0, e1, e2, e3, e4, e5, e6, e7, e8, e9, e10, e11, e12, e13, e14, e15, e16, e17, e18, e19⟩ := idx_facts t
  show V m c main_v25 (((cfg0.win 6).blk t).view.emb (ix2 h j)) = V m c main_v25 _
  refine congrArg (V m c main_v25) (funext fun a => Fin.ext ?_)
  match a with
  | ⟨0, _⟩ => show win0_6.index t (0 : Fin 2) * 256 + 1 * h.val = h.val; omega
  | ⟨1, _⟩ => show win0_6.index t (1 : Fin 2) * 256 + 1 * j.val = j.val; omega

theorem blk7 (c : Dev nD) (t : Fin cfg0.N) (j : Fin 256) :
    iblk m c 7 t (ix1 j) = V m c main_arg8 (ix1 j) := by
  obtain ⟨e0, e1, e2, e3, e4, e5, e6, e7, e8, e9, e10, e11, e12, e13, e14, e15, e16, e17, e18, e19⟩ := idx_facts t
  show V m c main_arg8 (((cfg0.win 7).blk t).view.emb (ix1 j)) = V m c main_arg8 _
  refine congrArg (V m c main_arg8) (funext fun a => Fin.ext ?_)
  match a with
  | ⟨0, _⟩ => show win0_7.index t (0 : Fin 1) * 256 + 1 * j.val = j.val; omega

theorem blk8 (c : Dev nD) (t : Fin cfg0.N) (j : Fin 256) (o : Fin 128) :
    iblk m c 8 t (ix2 j o) = V m c main_v26 (ix2 j o) := by
  obtain ⟨e0, e1, e2, e3, e4, e5, e6, e7, e8, e9, e10, e11, e12, e13, e14, e15, e16, e17, e18, e19⟩ := idx_facts t
  show V m c main_v26 (((cfg0.win 8).blk t).view.emb (ix2 j o)) = V m c main_v26 _
  refine congrArg (V m c main_v26) (funext fun a => Fin.ext ?_)
  match a with
  | ⟨0, _⟩ => show win0_8.index t (0 : Fin 2) * 256 + 1 * j.val = j.val; omega
  | ⟨1, _⟩ => show win0_8.index t (1 : Fin 2) * 128 + 1 * o.val = o.val; omega

theorem blk9 (c : Dev nD) (t : Fin cfg0.N) (o : Fin 128) :
    iblk m c 9 t (ix1 o) = V m c main_arg10 (ix1 o) := by
  obtain ⟨e0, e1, e2, e3, e4, e5, e6, e7, e8, e9, e10, e11, e12, e13, e14, e15, e16, e17, e18, e19⟩ := idx_facts t
  show V m c main_arg10 (((cfg0.win 9).blk t).view.emb (ix1 o)) = V m c main_arg10 _
  refine congrArg (V m c main_arg10) (funext fun a => Fin.ext ?_)
  match a with
  | ⟨0, _⟩ => show win0_9.index t (0 : Fin 1) * 128 + 1 * o.val = o.val; omega

/-! ## One row of one block -/

/-- Whatever the ten loaded blocks are, if row p of the row-blocked ones is row r of the flattened arrays and the others
    are the whole weight and bias arrays, the stored value at (p, o) is `G` at node (r / 4096, r % 4096). -/
theorem row_apply (feats : (⟨3, ![4, 4096, 128]⟩ : Shape).Idx → EReal) (nb : (⟨4, ![4, 4096, 16, 128]⟩ : Shape).Idx → EReal)
    (valid : (⟨3, ![4, 4096, 16]⟩ : Shape).Idx → BitVec 32) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 : (⟨1, ![128]⟩ : Shape).Idx → EReal)
    (x0 : Vec Ideal S256x128 .bf16) (x1 : Vec Ideal S256x16x128 .bf16) (x2 : Vec Ideal S256x16 .i32)
    (x3 x4 : Vec Ideal S128x256 .bf16) (x5 : Vec Ideal S256 .f32) (x6 : Vec Ideal S256x256 .bf16)
    (x7 : Vec Ideal S256 .f32) (x8 : Vec Ideal S256x128 .bf16) (x9 : Vec Ideal S128 .f32)
    (bb : Fin 4) (n : Fin 4096) (p : Fin 256)
    (h0 : ∀ i, x0 (ix2 p i) = feats (ix3 bb n i)) (h1 : ∀ k i, x1 (ix3 p k i) = nb (ix4 bb n k i))
    (h2 : ∀ k, x2 (ix2 p k) = valid (ix3 bb n k))
    (h3 : ∀ i h, x3 (ix2 i h) = W1 (ix2 (Fin.castAdd 128 i) h)) (h4 : ∀ i h, x4 (ix2 i h) = W1 (ix2 (Fin.natAdd 128 i) h))
    (h5 : ∀ h, x5 (ix1 h) = b1 (ix1 h)) (h6 : ∀ h j, x6 (ix2 h j) = W2 (ix2 h j)) (h7 : ∀ j, x7 (ix1 j) = b2 (ix1 j))
    (h8 : ∀ j o, x8 (ix2 j o) = W3 (ix2 j o)) (h9 : ∀ o, x9 (ix1 o) = b3 (ix1 o)) (o : Fin 128) :
    k0_pay1 (F := Ideal) x9 (k0_pay2 (F := Ideal) x0 x1 x3 x4 x5 x6 x7 x8) x2 (ix2 p o)
      = Cert.EdgeMlp.G feats nb valid W1 b1 W2 b2 W3 b3 bb n o := by
  rw [Block.payload_apply]
  unfold Cert.EdgeMlp.G
  simp only [h0, h1, h2, h3, h4, h5, h6, h7, h8, h9]

/-! ## What a point writes back, the cover, the array -/

/-- Point t writes back block t of `flat`. -/
theorem flushed_eq (c : Dev nD) (t : Fin cfg0.N) :
    (dats m 0 c).flushed 10 t = ((cfg0.win 10).blk t).view.read (Elt Ideal) (flat m c) := by
  show (cfg0.win 10).cut (grid0.coords t) ((dats m 0 c).after 10 t) = _
  rw [after0_10]
  unfold out0_10
  rw [View.canon_unit_zero hz2]
  simp only [View.ld_unit_zero (S := S256x128) hz2, View.ld_unit_zero (S := S256x16x128) hz3,
    View.ld_unit_zero (S := S256x16) hz2, View.ld_unit_zero (S := S128x256) hz2, View.ld_unit_zero (S := S256) hz1,
    View.ld_unit_zero (S := S256x256) hz2, View.ld_unit_zero (S := S128) hz1]
  funext j
  obtain ⟨p, o, rfl⟩ : ∃ (p : Fin 256) (o : Fin 128), j = ix2 p o := ⟨j 0, j 1, eq_ix2 j⟩
  have ht : t.val < 64 := Nat.lt_of_lt_of_eq t.isLt N_0
  have hr : t.val * 256 + p.val < 16384 := by have := p.isLt; omega
  obtain ⟨e0, e1, e2, e3, e4, e5, e6, e7, e8, e9, e10, e11, e12, e13, e14, e15, e16, e17, e18, e19⟩ := idx_facts t
  have hemb : ((cfg0.win 10).blk t).view.emb (ix2 p o) = ix2 ⟨t.val * 256 + p.val, hr⟩ o := by
    funext a; apply Fin.ext
    match a with
    | ⟨0, _⟩ => show win0_10.index t (0 : Fin 2) * 256 + 1 * p.val = t.val * 256 + p.val; omega
    | ⟨1, _⟩ => show win0_10.index t (1 : Fin 2) * 128 + 1 * o.val = o.val; omega
  show k0_pay1 (F := Ideal) (iblk m c 9 t) (k0_pay2 (F := Ideal) (iblk m c 0 t) (iblk m c 1 t) (iblk m c 3 t) (iblk m c 4 t)
      (iblk m c 5 t) (iblk m c 6 t) (iblk m c 7 t) (iblk m c 8 t)) (iblk m c 2 t) (ix2 p o)
    = flat m c (((cfg0.win 10).blk t).view.emb (ix2 p o))
  rw [hemb]
  exact row_apply _ _ _ _ _ _ _ _ _ (iblk m c 0 t) (iblk m c 1 t) (iblk m c 2 t) (iblk m c 3 t) (iblk m c 4 t) (iblk m c 5 t)
    (iblk m c 6 t) (iblk m c 7 t) (iblk m c 8 t) (iblk m c 9 t) _ _ p
    (fun i => (blk0 m c t p i hr).trans (Arrays.feats_flat m c ⟨t.val * 256 + p.val, hr⟩ i))
    (fun k i => (blk1 m c t p k i hr).trans (Arrays.nbrs_flat m c ⟨t.val * 256 + p.val, hr⟩ k i))
    (fun k => (blk2 m c t p k hr).trans (Arrays.valid_flat m c ⟨t.val * 256 + p.val, hr⟩ k))
    (fun i h => (blk3 m c t i h).trans (Arrays.w1_upper m c i h))
    (fun i h => (blk4 m c t i h).trans (Arrays.w1_lower m c i h))
    (fun h => (blk5 m c t h).trans (congrFun (V_main_arg6 m c) (ix1 h)))
    (fun h j => (blk6 m c t h j).trans (Arrays.w2_same m c h j))
    (fun j => (blk7 m c t j).trans (congrFun (V_main_arg8 m c) (ix1 j)))
    (fun j o => (blk8 m c t j o).trans (Arrays.w3_same m c j o))
    (fun o => (blk9 m c t o).trans (congrFun (V_main_arg10 m c) (ix1 o))) o

/-- An index of the array is in point t's block iff each coordinate is in the block's range on its axis. -/
theorem mem_blk (t : Fin cfg0.N) (i : S16384x128.Idx) :
    i ∈ ((cfg0.win 10).blk t).view.set ↔ ∀ a : Fin 2, win0_10.index t a * S256x128.size a ≤ (i a).val
      ∧ (i a).val < win0_10.index t a * S256x128.size a + S256x128.size a := by
  show i ∈ ((View.whole main_v27).slice (win0_10.rect t)).set ↔ _
  rw [View.set_slice_whole, Rect.mem_set_unit]
  exact Iff.rfl

/-- Every index of the array is in the block of the point its row falls in. -/
theorem cover (i : S16384x128.Idx) :
    ∃ t : Fin cfg0.N, (cfg0.win 10).flush t = true ∧ i ∈ ((cfg0.win 10).blk t).view.set := by
  have hi0 : (i 0).val < 16384 := (i 0).isLt
  have hi1 : (i 1).val < 128 := (i 1).isLt
  refine ⟨⟨(i 0).val / 256, Nat.lt_of_lt_of_eq (by omega : (i 0).val / 256 < 64) N_0.symm⟩, flush0_10 _, ?_⟩
  rw [mem_blk]
  obtain ⟨e0, e1, e2, e3, e4, e5, e6, e7, e8, e9, e10, e11, e12, e13, e14, e15, e16, e17, e18, e19⟩ :=
    idx_facts ⟨(i 0).val / 256, Nat.lt_of_lt_of_eq (by omega : (i 0).val / 256 < 64) N_0.symm⟩
  have e18' : win0_10.index ⟨(i 0).val / 256, Nat.lt_of_lt_of_eq (by omega : (i 0).val / 256 < 64) N_0.symm⟩ (0 : Fin 2) = (i 0).val / 256 := e18
  intro a
  match a with
  | ⟨0, _⟩ =>
    show win0_10.index ⟨(i 0).val / 256, _⟩ (0 : Fin 2) * 256 ≤ (i 0).val
      ∧ (i 0).val < win0_10.index ⟨(i 0).val / 256, _⟩ (0 : Fin 2) * 256 + 256
    omega
  | ⟨1, _⟩ =>
    show win0_10.index ⟨(i 0).val / 256, _⟩ (1 : Fin 2) * 128 ≤ (i 1).val
      ∧ (i 1).val < win0_10.index ⟨(i 0).val / 256, _⟩ (1 : Fin 2) * 128 + 128
    omega

/-- The output window's array after the run. -/
theorem final (c : Dev nD) : (dats m 0 c).arrAt 10 cfg0.N = flat m c :=
  (dats m 0 c).arrAt_eq_of_cover 10 (flat m c) (fun t _ => flushed_eq m c t) cover

/-! ## The lines after the region, and the run -/

/-- After the region the one host line reshapes the output window's array to [4, 4096, 128]. -/
theorem tail_eq (c : Dev nD) :
    Pipeline.afterTail₀ cfgs (dats m) 0 (V0 m) [hostOps1] c main_v28
      = shapeCast S4x4096x128 (flat m c) shapeCasts_S16384x128_S4x4096x128 := by
  unfold Pipeline.afterTail₀
  show StableHlo.after hostOps1 _ (Proc.devRef .tc main_v28) = _
  after_results
  have hw : Pipeline.withArrays (cfgs 0).spec c (V0 m c) (fun w => (dats m 0 c).arrAt w (cfgs 0).N)
      (Proc.devRef .tc main_v27) = flat m c :=
    (Pipeline.withArrays_arr spec0 launch0.win.arr_inj c _ _ 10).trans (final m c)
  rw [hw]
  rfl

/-- The reshaped array at node (b, n), channel o, is row 4096 b + n of `flat`, which is `G` at that node. -/
theorem shaped_apply (c : Dev nD) (i : S4x4096x128.Idx) :
    shapeCast S4x4096x128 (flat m c) shapeCasts_S16384x128_S4x4096x128 i
      = Cert.EdgeMlp.G (m ((c : Thread nD τ).loc main_arg2))
    (Arrays.nbrs (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 0) (i 1) (i 2) := by
  obtain ⟨b, n, o, rfl⟩ : ∃ (b : Fin 4) (n : Fin 4096) (o : Fin 128), i = ix3 b n o := ⟨i 0, i 1, i 2, eq_ix3 i⟩
  have hb := b.isLt
  have hn := n.isLt
  have ho := o.isLt
  refine (shapeCast_apply (flat m c) shapeCasts_S16384x128_S4x4096x128 (ix3 b n o)
    (ix2 ⟨b.val * 4096 + n.val, by omega⟩ o) ?_).trans ?_
  · rw [Shape.rowMajor_val_two, Shape.rowMajor_val_three]
    show (b.val * 4096 + n.val) * 128 + o.val = (b.val * 4096 + n.val) * 128 + o.val
    rfl
  · unfold flat
    have eb : (⟨(b.val * 4096 + n.val) / 4096, by omega⟩ : Fin 4) = b := Fin.ext (by show (b.val * 4096 + n.val) / 4096 = b.val; omega)
    have en : (⟨(b.val * 4096 + n.val) % 4096, Nat.mod_lt _ (by decide)⟩ : Fin 4096) = n :=
      Fin.ext (by show (b.val * 4096 + n.val) % 4096 = n.val; omega)
    show Cert.EdgeMlp.G _ _ _ _ _ _ _ _ _ (⟨(b.val * 4096 + n.val) / 4096, _⟩ : Fin 4)
      (⟨(b.val * 4096 + n.val) % 4096, _⟩ : Fin 4096) o = Cert.EdgeMlp.G _ _ _ _ _ _ _ _ _ b n o
    rw [eb, en]

/-- What the frame run's post says of the result buffer. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v28)
      = fun i : S4x4096x128.Idx => Cert.EdgeMlp.G (m ((c : Thread nD τ).loc main_arg2))
    (Arrays.nbrs (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 0) (i 1) (i 2) :=
  ((h c).2 main_v28 (Pipeline.mem_restRefs_of main_v28 (by decide) (by decide))).trans
    ((tail_eq m c).trans (funext fun i => shaped_apply m c i))

/-- And of the argument arrays: an array no window stages is what the lines after the region leave, a staged input is
    its contents at the region's entry; either way as launched. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 5).trans (((dats m 0 c).arrAt_in 5 rfl _).trans ((A_eq m c 5).trans (V_main_arg6 m c))),
    ((h c).2 main_arg7 (Pipeline.mem_restRefs_of main_arg7 (by decide) (by decide))).trans (W_main_arg7 m (dats m) c),
    ((h c).1 7).trans (((dats m 0 c).arrAt_in 7 rfl _).trans ((A_eq m c 7).trans (V_main_arg8 m c))),
    ((h c).2 main_arg9 (Pipeline.mem_restRefs_of main_arg9 (by decide) (by decide))).trans (W_main_arg9 m (dats m) c),
    ((h c).1 9).trans (((dats m 0 c).arrAt_in 9 rfl _).trans ((A_eq m c 9).trans (V_main_arg10 m c)))⟩

/-- The kernel's run: every weakly fair execution ends with the result at `G` of the argument arrays, node by node, and
    the arguments as launched. -/
theorem run : θ_run defs (onTc (τ := τ) (main (F := Ideal))) ⟨m, fun _ => 0, ρ⟩ fun r => ∀ c : Dev nD,
      r.2.mem ((c.tc : Thread nD τ).loc main_v28)
        = (fun i : S4x4096x128.Idx => Cert.EdgeMlp.G (m ((c : Thread nD τ).loc main_arg2))
    (Arrays.nbrs (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨result_eq m r h c, kept m r h c⟩) (run_main m ρ)

end Cert.KernelIdeal.Result

end
-- ==== Proof.ReferenceValue.lean ====
/-
  The reference's result, read at one index, is the node function of EdgeMlp.

  The reference joins each node's own feature row with each gathered neighbour row along the channel axis, takes the
  three dense layers on the joined 256 channels, multiplies by the mask and sums over the sixteen neighbours. Read
  index by index the three products are sums over the contracted channel, the bias rows are broadcast, the ramp is the
  maximum with zero, and the first layer's 256-term sum over the joined row is the two 128-term sums of `layer1`
  (`EdgeMlp.layer1_of_joined`).
-/
import proofs.«128306_j23158463660311_1_alg».proof.Proof.Gen.ReferenceIdeal.Read
import proofs.«128306_j23158463660311_1_alg».proof.Proof.EdgeMlp
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The joined row on its first 128 channels is the node's own feature row (the same for every neighbour slot). -/
theorem joined_self (x2 : (⟨S4x4096x128, .f32⟩ : BufTy).Contents (Elt Ideal)) (x3 : (⟨S4x4096x16, .i32⟩ : BufTy).Contents (Elt Ideal))
    (b : Fin 4) (n : Fin 4096) (k : Fin 16) (c : Fin 128) :
    val_main_v19 (F := Ideal) x2 x3 (ix4 b n k (Fin.castAdd 128 c)) = x2 (ix3 b n c) := by
  unfold val_main_v19
  rw [concatenate_pair_apply_left (t := S4x4096x16x256) (3 : Fin 4) (val_main_v18 (F := Ideal) x2) (val_main_v16 (F := Ideal) x2 x3)
    concatenates_S4x4096x16x128_S4x4096x16x128_S4x4096x16x256_d3 (ix4 b n k (Fin.castAdd 128 c)) rfl (ix4 b n k c) (fun a => by
    match a with
    | ⟨0, _⟩ => rfl
    | ⟨1, _⟩ => rfl
    | ⟨2, _⟩ => rfl
    | ⟨3, _⟩ => rfl)]
  rw [val_main_v18_apply, val_main_v17_apply]
  exact congrArg x2 (funext fun a => Fin.ext (by
    match a with
    | ⟨0, _⟩ => rfl
    | ⟨1, _⟩ => rfl
    | ⟨2, _⟩ => rfl))

/-- The joined row on its last 128 channels is the gathered neighbour row. -/
theorem joined_nbr (x2 : (⟨S4x4096x128, .f32⟩ : BufTy).Contents (Elt Ideal)) (x3 : (⟨S4x4096x16, .i32⟩ : BufTy).Contents (Elt Ideal))
    (b : Fin 4) (n : Fin 4096) (k : Fin 16) (c : Fin 128) :
    val_main_v19 (F := Ideal) x2 x3 (ix4 b n k (Fin.natAdd 128 c)) = val_main_v16 (F := Ideal) x2 x3 (ix4 b n k c) := by
  unfold val_main_v19
  exact concatenate_pair_apply_right (t := S4x4096x16x256) (3 : Fin 4) (val_main_v18 (F := Ideal) x2) (val_main_v16 (F := Ideal) x2 x3)
    concatenates_S4x4096x16x128_S4x4096x16x128_S4x4096x16x256_d3 (ix4 b n k (Fin.natAdd 128 c)) rfl rfl (ix4 b n k c) (fun a => by
    match a with
    | ⟨0, _⟩ => exact fun _ => rfl
    | ⟨1, _⟩ => exact fun _ => rfl
    | ⟨2, _⟩ => exact fun _ => rfl
    | ⟨3, _⟩ => exact fun h => absurd rfl h) (by
      show c.val + 128 = 128 + c.val
      omega)

/-- The first hidden layer at edge (b, n, k): the 256-term product over the joined row, the bias and the ramp are
    `layer1` of the node's own row and the gathered row. -/
theorem hid1 (x2 : (⟨S4x4096x128, .f32⟩ : BufTy).Contents (Elt Ideal)) (x3 : (⟨S4x4096x16, .i32⟩ : BufTy).Contents (Elt Ideal))
    (x5 : (⟨S256x256, .f32⟩ : BufTy).Contents (Elt Ideal)) (x6 : (⟨S256, .f32⟩ : BufTy).Contents (Elt Ideal))
    (b : Fin 4) (n : Fin 4096) (k : Fin 16) (h : Fin 256) :
    val_main_v24 (F := Ideal) x2 x3 x5 x6 (ix4 b n k h)
      = Cert.EdgeMlp.layer1 (fun i h => x5 (ix2 (Fin.castAdd 128 i) h)) (fun i h => x5 (ix2 (Fin.natAdd 128 i) h))
          (fun h => x6 (ix1 h)) (fun i => x2 (ix3 b n i)) (fun i => val_main_v16 (F := Ideal) x2 x3 (ix4 b n k i)) h := by
  have e1 : ∀ q : Fin 256, lidx_main_v20 (ix4 b n k h) q = ix4 b n k q := fun q => funext fun a => Fin.ext (by
    match a with
    | ⟨0, _⟩ => rfl
    | ⟨1, _⟩ => rfl
    | ⟨2, _⟩ => rfl
    | ⟨3, _⟩ => rfl)
  have e2 : ∀ q : Fin 256, ridx_main_v20 (ix4 b n k h) q = ix2 q h := fun q => funext fun a => Fin.ext (by
    match a with
    | ⟨0, _⟩ => rfl
    | ⟨1, _⟩ => rfl)
  have e3 : idx_main_v21 (idx_main_v22 (ix4 b n k h)) = ix1 h := funext fun a => Fin.ext (by
    match a with
    | ⟨0, _⟩ => rfl)
  rw [val_main_v24_apply, val_main_v23_apply, val_main_v20_apply, val_main_v22_apply, val_main_v21_apply,
    val_main_call0_v0_apply, val_main_call0_cst_apply]
  simp only [Ideal.maximumf_def, Ideal.addf_def, Ideal.ofBits_def, Ideal.ofBits_zero_f32, e1, e2, e3]
  exact Cert.EdgeMlp.layer1_of_joined (fun q h => x5 (ix2 q h)) (fun h => x6 (ix1 h)) (fun i => x2 (ix3 b n i))
    (fun i => val_main_v16 (F := Ideal) x2 x3 (ix4 b n k i)) (fun q => val_main_v19 (F := Ideal) x2 x3 (ix4 b n k q))
    (fun i => joined_self x2 x3 b n k i) (fun i => joined_nbr x2 x3 b n k i) h

/-- The second hidden layer at edge (b, n, k). -/
theorem hid2 (x2 : (⟨S4x4096x128, .f32⟩ : BufTy).Contents (Elt Ideal)) (x3 : (⟨S4x4096x16, .i32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (b : Fin 4) (n : Fin 4096) (k : Fin 16) (j : Fin 256) :
    val_main_v29 (F := Ideal) x2 x3 x5 x6 x7 x8 (ix4 b n k j)
      = Cert.EdgeMlp.layer2 (fun h j => x7 (ix2 h j)) (fun j => x8 (ix1 j))
          (Cert.EdgeMlp.layer1 (fun i h => x5 (ix2 (Fin.castAdd 128 i) h)) (fun i h => x5 (ix2 (Fin.natAdd 128 i) h))
            (fun h => x6 (ix1 h)) (fun i => x2 (ix3 b n i)) (fun i => val_main_v16 (F := Ideal) x2 x3 (ix4 b n k i))) j := by
  have e1 : ∀ q : Fin 256, lidx_main_v25 (ix4 b n k j) q = ix4 b n k q := fun q => funext fun a => Fin.ext (by
    match a with
    | ⟨0, _⟩ => rfl
    | ⟨1, _⟩ => rfl
    | ⟨2, _⟩ => rfl
    | ⟨3, _⟩ => rfl)
  have e2 : ∀ q : Fin 256, ridx_main_v25 (ix4 b n k j) q = ix2 q j := fun q => funext fun a => Fin.ext (by
    match a with
    | ⟨0, _⟩ => rfl
    | ⟨1, _⟩ => rfl)
  have e3 : idx_main_v26 (idx_main_v27 (ix4 b n k j)) = ix1 j := funext fun a => Fin.ext (by
    match a with
    | ⟨0, _⟩ => rfl)
  rw [val_main_v29_apply, val_main_v28_apply, val_main_v25_apply, val_main_v27_apply, val_main_v26_apply,
    val_main_call1_v0_apply, val_main_call1_cst_apply]
  simp only [Ideal.maximumf_def, Ideal.addf_def, Ideal.ofBits_def, Ideal.ofBits_zero_f32, e1, e2, e3, hid1]
  rfl

/-- The output layer at edge (b, n, k): one edge's channel o. -/
theorem out3 (x2 : (⟨S4x4096x128, .f32⟩ : BufTy).Contents (Elt Ideal)) (x3 : (⟨S4x4096x16, .i32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x128, .f32⟩ : BufTy).Contents (Elt Ideal)) (x10 : (⟨S128, .f32⟩ : BufTy).Contents (Elt Ideal))
    (b : Fin 4) (n : Fin 4096) (k : Fin 16) (o : Fin 128) :
    val_main_v33 (F := Ideal) x2 x3 x5 x6 x7 x8 x9 x10 (ix4 b n k o)
      = Cert.EdgeMlp.edge (fun i h => x5 (ix2 (Fin.castAdd 128 i) h)) (fun i h => x5 (ix2 (Fin.natAdd 128 i) h))
          (fun h => x6 (ix1 h)) (fun h j => x7 (ix2 h j)) (fun j => x8 (ix1 j)) (fun j o => x9 (ix2 j o)) (fun o => x10 (ix1 o))
          (fun i => x2 (ix3 b n i)) (fun i => val_main_v16 (F := Ideal) x2 x3 (ix4 b n k i)) o := by
  have e1 : ∀ q : Fin 256, lidx_main_v30 (ix4 b n k o) q = ix4 b n k q := fun q => funext fun a => Fin.ext (by
    match a with
    | ⟨0, _⟩ => rfl
    | ⟨1, _⟩ => rfl
    | ⟨2, _⟩ => rfl
    | ⟨3, _⟩ => rfl)
  have e2 : ∀ q : Fin 256, ridx_main_v30 (ix4 b n k o) q = ix2 q o := fun q => funext fun a => Fin.ext (by
    match a with
    | ⟨0, _⟩ => rfl
    | ⟨1, _⟩ => rfl)
  have e3 : idx_main_v31 (idx_main_v32 (ix4 b n k o)) = ix1 o := funext fun a => Fin.ext (by
    match a with
    | ⟨0, _⟩ => rfl)
  rw [val_main_v33_apply, val_main_v30_apply, val_main_v32_apply, val_main_v31_apply]
  simp only [Ideal.addf_def, e1, e2, e3, hid2]
  rfl

/-- The last stage of the reference at node (i 0, i 1), channel i 2, is `G` of the argument arrays and the gathered rows. -/
theorem result_apply (x2 : (⟨S4x4096x128, .f32⟩ : BufTy).Contents (Elt Ideal)) (x3 x4 : (⟨S4x4096x16, .i32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x128, .f32⟩ : BufTy).Contents (Elt Ideal)) (x10 : (⟨S128, .f32⟩ : BufTy).Contents (Elt Ideal))
    (i : S4x4096x128.Idx) :
    val_main_v38 (F := Ideal) x2 x3 x4 x5 x6 x7 x8 x9 x10 i
      = Cert.EdgeMlp.G x2 (val_main_v16 (F := Ideal) x2 x3) x4 x5 x6 x7 x8 x9 x10 (i 0) (i 1) (i 2) := by
  obtain ⟨b, n, o, rfl⟩ : ∃ (b : Fin 4) (n : Fin 4096) (o : Fin 128), i = ix3 b n o := ⟨i 0, i 1, i 2, eq_ix3 i⟩
  show _ = Cert.EdgeMlp.G x2 (val_main_v16 (F := Ideal) x2 x3) x4 x5 x6 x7 x8 x9 x10 b n o
  have e1 : ∀ k : Fin 16, idx_main_v38 (ix3 b n o) k = ix4 b n k o := fun k => funext fun a => Fin.ext (by
    match a with
    | ⟨0, _⟩ => rfl
    | ⟨1, _⟩ => rfl
    | ⟨2, _⟩ => rfl
    | ⟨3, _⟩ => rfl)
  have e2 : ∀ k : Fin 16, idx_main_v34 (idx_main_v36 (ix4 b n k o)) = ix3 b n k := fun k => funext fun a => Fin.ext (by
    match a with
    | ⟨0, _⟩ => rfl
    | ⟨1, _⟩ => rfl
    | ⟨2, _⟩ => rfl)
  rw [val_main_v38_apply, val_main_cst_apply]
  simp only [Ideal.ofBits_def, Ideal.ofBits_zero_f32, zero_add, e1, val_main_v37_apply, val_main_v36_apply,
    val_main_v35_apply, val_main_v34_apply, e2, Ideal.mulf_def, out3]
  rfl

end Cert.ReferenceIdeal.RefValue

end
-- ==== Proof.NeighbourRows.lean ====
/-
  The two programs gather the same neighbour rows.

  Both wrap a negative neighbour index once, prepend the batch coordinate and take rows of the feature array; the
  kernel's host code takes them from the features rounded to a narrower float format, which on the extended reals is
  the feature array itself. So the two gathered arrays are one function of the features and the indices.
-/
import proofs.«128306_j23158463660311_1_alg».proof.Proof.KernelArrays
import proofs.«128306_j23158463660311_1_alg».proof.Proof.Gen.ReferenceIdeal.Read

noncomputable section

namespace Cert.NeighbourRows

open Idealize.ShloMosaic

/-- The kernel's gathered rows are the reference's. -/
theorem agree (feats : FVec Ideal Cert.KernelIdeal.S4x4096x128 .f32) (idx : IVec Cert.KernelIdeal.S4x4096x16 32) :
    Cert.KernelIdeal.Arrays.nbrs feats idx = Cert.ReferenceIdeal.Read.val_main_v16 (F := Ideal) feats idx := by
  funext j
  unfold Cert.KernelIdeal.Arrays.nbrs Cert.ReferenceIdeal.Read.val_main_v16 Host.gather
  rfl

end Cert.NeighbourRows

end
-- ==== Proof.lean ====
/-
  The certificate of a message-passing layer: each of 4 × 4096 nodes gathers sixteen neighbour feature rows, runs
  every (node, neighbour) pair through a three-layer dense network, masks and sums over the neighbours.

  The kernel gathers on the host, flattens the nodes to 16384 rows and runs the network on 64 blocks of 256 rows, with
  the first weight matrix cut into the half that meets a node's own features and the half that meets a neighbour's; the
  reference joins own and neighbour features into one 256-channel row and multiplies by the whole matrix. On the
  extended reals the format changes are the identity and both are one function of the argument arrays, `EdgeMlp.G`:
  the kernel's side by reading each block's stored value at an index and tiling the array by the blocks
  (KernelBlock, KernelArrays, KernelValue), the reference's by reading its operations one at a time (ReferenceValue),
  the first layer by splitting the 256-term sum in two (`EdgeMlp.layer1_of_joined`), and the gathered rows agree
  (NeighbourRows). Addition of extended reals is commutative and associative, which is all the splitting uses, so the
  inputs' finiteness is never called on. The three frames are the programs' runs; the idealization rewrote nothing.
-/
import proofs.«128306_j23158463660311_1_alg».proof.Defs
import proofs.«128306_j23158463660311_1_alg».proof.Proof.Gen.Kernel
import proofs.«128306_j23158463660311_1_alg».proof.Proof.Gen.Kernel.Skeleton
import proofs.«128306_j23158463660311_1_alg».proof.Proof.Gen.Kernel.Launch
import proofs.«128306_j23158463660311_1_alg».proof.Proof.Gen.Kernel.Points
import proofs.«128306_j23158463660311_1_alg».proof.Proof.Gen.Kernel.Frame
import proofs.«128306_j23158463660311_1_alg».proof.Proof.Gen.KernelIdeal
import proofs.«128306_j23158463660311_1_alg».proof.Proof.Gen.KernelIdeal.Skeleton
import proofs.«128306_j23158463660311_1_alg».proof.Proof.Gen.KernelIdeal.Launch
import proofs.«128306_j23158463660311_1_alg».proof.Proof.Gen.KernelIdeal.Points
import proofs.«128306_j23158463660311_1_alg».proof.Proof.Gen.KernelIdeal.Frame
import proofs.«128306_j23158463660311_1_alg».proof.Proof.Gen.ReferenceIdeal
import proofs.«128306_j23158463660311_1_alg».proof.Proof.Gen.Pre_finite_inputs
import proofs.«128306_j23158463660311_1_alg».proof.Proof.Gen.ReferenceIdeal.Run
import proofs.«128306_j23158463660311_1_alg».proof.Proof.Gen.ReferenceIdeal.Read
import proofs.«128306_j23158463660311_1_alg».proof.Proof.EdgeMlp
import proofs.«128306_j23158463660311_1_alg».proof.Proof.KernelValue
import proofs.«128306_j23158463660311_1_alg».proof.Proof.ReferenceValue
import proofs.«128306_j23158463660311_1_alg».proof.Proof.NeighbourRows
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `G` of the argument arrays and the gathered rows, node by node; the arguments
    agree, and so do the gathered rows. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  refine (Cert.ReferenceIdeal.Read.val_main_v38_eq _ _ _ _ _ _ _ _ _).trans ?_
  funext i
  rw [Cert.ReferenceIdeal.RefValue.result_apply, a2, a3, a4, a5, a6, a7, a8, a9, a10, ← Cert.NeighbourRows.agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
